-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x512 : Shape := ⟨2, ![2048, 512]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x2048 .f32) (main_arg1 : FVec F S2048x512 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S16384x2048 : Shape := ⟨2, ![16384, 2048]⟩
abbrev S2048x512 : Shape := ⟨2, ![2048, 512]⟩
abbrev S16384x2561 : Shape := ⟨2, ![16384, 2561]⟩
abbrev S512x2048 : Shape := ⟨2, ![512, 2048]⟩
abbrev S512x2561 : Shape := ⟨2, ![512, 2561]⟩
abbrev S512x512 : Shape := ⟨2, ![512, 512]⟩
abbrev S512x1 : Shape := ⟨2, ![512, 1]⟩
abbrev S512x511 : Shape := ⟨2, ![512, 511]⟩
abbrev S512x2560 : Shape := ⟨2, ![512, 2560]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x512, .f32⟩
  | .hbm, ⟨2, _⟩ => ⟨S2048x512, .bf16⟩
  | .hbm, ⟨3, _⟩ => ⟨S16384x2561, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S512x2561, .f32⟩
  | .local _ .vmem, ⟨4, _⟩ => ⟨S512x2561, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2561 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  slices_S512x512_o0_0_S512x1 : S512x512.Slices ![0, 0] S512x1
  shapeCasts_S512x1_S512x1 : S512x1.ShapeCasts S512x1
  broadcasts_S512x1_S512x512 : S512x1.Broadcasts S512x512
  slices_S512x512_o0_1_S512x511 : S512x512.Slices ![0, 1] S512x511
  slices_S512x512_o0_1_S512x1 : S512x512.Slices ![0, 1] S512x1
  slices_S512x512_o0_2_S512x1 : S512x512.Slices ![0, 2] S512x1
  concatenates_S512x511_S512x1_S512x512_d1 : Shape.Concatenates [S512x511, S512x1] S512x512 1
  concatenates_S512x512_S512x512_S512x512_S512x512_S512x512_S512x2560_d1 : Shape.Concatenates [S512x512, S512x512, S512x512, S512x512, S512x512] S512x2560 1
  inb_S512x2561_S512x1_0_0 : ∀ a, (![0, 0] : Fin 2 → Nat) a + S512x1.size a ≤ S512x2561.size a
  h_S512x1 : 0 < S512x1.numel
  inb_S512x2561_S512x2560_0_1 : ∀ a, (![0, 1] : Fin 2 → Nat) a + S512x2560.size a ≤ S512x2561.size a
  h_S512x2560 : 0 < S512x2560.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2561.size a ≤ S16384x2561.size a
  hwx0_2 : ∀ i : grid0.Coords, EltTy.bits .f32 = 32 ∨ (Rect.block (s := S16384x2561) S512x2561.size (cc0_transform_2 i) (hinb0_2 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2561.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x512 : Shape := ⟨2, ![2048, 512]⟩
abbrev S512 : Shape := ⟨1, ![512]⟩
abbrev S16384x512 : Shape := ⟨2, ![16384, 512]⟩
abbrev S_ : Shape := ⟨0, ![]⟩
abbrev S16384x1 : Shape := ⟨2, ![16384, 1]⟩
abbrev S512x1 : Shape := ⟨2, ![512, 1]⟩
abbrev S16384x2561 : Shape := ⟨2, ![16384, 2561]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x512, .f32⟩
  | .hbm, ⟨2, _⟩ => ⟨S512, .i32⟩
  | .hbm, ⟨3, _⟩ => ⟨S512, .i32⟩
  | .hbm, ⟨4, _⟩ => ⟨S16384x512, .f32⟩
  | .hbm, ⟨5, _⟩ => ⟨S_, .f32⟩
  | .hbm, ⟨6, _⟩ => ⟨S16384x1, .f32⟩
  | .hbm, ⟨7, _⟩ => ⟨S16384x512, .f32⟩
  | .hbm, ⟨8, _⟩ => ⟨S16384x512, .f32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S16384x512, .f32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x2561, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  bcast_S_S512 : S_.BroadcastsInDim S512 (![] : Fin 0 → Fin S512.rank)
  bcast_S512_S512x1_0 : S512.BroadcastsInDim S512x1 (![0] : Fin 1 → Fin S512x1.rank)
  bcast_S_S16384x512 : S_.BroadcastsInDim S16384x512 (![] : Fin 0 → Fin S16384x512.rank)
  concatenates_S16384x1_S16384x512_S16384x512_S16384x512_S16384x512_S16384x512_S16384x2561_d1 : Shape.Concatenates [S16384x1, S16384x512, S16384x512, S16384x512, S16384x512, S16384x512] S16384x2561 1
  dot_S16384x2048_S2048x512_S16384x512_1_0_0_1_n_n_wf : DotDims.WF S16384x2048 S2048x512 S16384x512 [1] [0] [0] [1] [] []
  gather_S16384x512_S512x1_S16384x512_0_1_n_n_1_1_163841_wf : GatherDims.WF S16384x512 S512x1 S16384x512 [0] [1] [] [1] [] 1 ![16384, 1]

variable [Facts₀]

def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def gather_S16384x512_S512x1_S16384x512_0_1_n_n_1_1_163841 : GatherDims S16384x512 S512x1 S16384x512 where
  offsetDims := [0]
  collapsedSliceDims := [1]
  operandBatchingDims := []
  startIndicesBatchingDims := []
  startIndexMap := [1]
  indexVectorDim := 1
  sliceSizes := ![16384, 1]
  wf := gather_S16384x512_S512x1_S16384x512_0_1_n_n_1_1_163841_wf

class Facts : Prop extends Facts₀ where

variable [Facts]
-- ==== Proof.Spec.lean ====
/-
  The specification both programs are compared against.

  With Z = X · P the projected array (row r, column c: the sum over k of X[r,k] · P[k,c]), the result has
  2561 columns per row:  column 0 is the constant one;  columns 1..512 are Z;  513..1024 its square;
  1025..1536 its cube;  1537..2048 the cross terms;  2049..2560 sqrt(|Z| + ε).
  The cross terms are the first 512 pairs (i, j), i < j, in lexicographic order: (0,1), …, (0,511), then (1,2).
  So cross term c is Z[r,0] · Z[r,c+1] for c < 511, and the last one is Z[r,1] · Z[r,2].

  Everything is stated for ONE projected row `z : Fin 512 → EReal` (`feat`), so that the whole array (`G`) and
  a block of 512 rows of it (`GB`) are the same function of a row of X and of P.
-/
import Idealize.ShloMosaic.PureOps.Ideal
import Idealize.ShloMosaic.Lib.ValueIdx

noncomputable section

namespace Cert.Spec

open Idealize.ShloMosaic Idealize.ShloMosaic.ValueIdx

/-- The shapes: X, P, the result, a block of 512 rows of X, and a block of 512 rows of the result. -/
abbrev SX : Shape := ⟨2, ![16384, 2048]⟩
abbrev SP : Shape := ⟨2, ![2048, 512]⟩
abbrev SO : Shape := ⟨2, ![16384, 2561]⟩
abbrev SXB : Shape := ⟨2, ![512, 2048]⟩
abbrev SOB : Shape := ⟨2, ![512, 2561]⟩

/-- One row `x` of X against P: entry `c` of the projected row. -/
def rowProj (x : Fin 2048 → EReal) (P : SP.Idx → EReal) (c : Fin 512) : EReal :=
  ∑ k : Fin 2048, x k * P (ix2 k c)

/-- The additive constant under the square root, as the word both programs carry. -/
abbrev eps : EReal := Ideal.ofBits .f32 0x322BCC77#32

/-- The constant of column 0, as the word both programs carry. -/
abbrev one : EReal := Ideal.ofBits .f32 0x3F800000#32

/-- Output column `q` of a row whose projection is `z`. -/
def feat (z : Fin 512 → EReal) (q : Fin 2561) : EReal :=
  if q.val = 0 then one
  else if h1 : q.val < 513 then z ⟨q.val - 1, by omega⟩
  else if h2 : q.val < 1025 then z ⟨q.val - 513, by omega⟩ * z ⟨q.val - 513, by omega⟩
  else if h3 : q.val < 1537 then (z ⟨q.val - 1025, by omega⟩ * z ⟨q.val - 1025, by omega⟩) * z ⟨q.val - 1025, by omega⟩
  else if h4 : q.val < 2048 then z ⟨0, by omega⟩ * z ⟨q.val - 1536, by omega⟩
  else if h5 : q.val = 2048 then z ⟨1, by omega⟩ * z ⟨2, by omega⟩
  else Ideal.sqrt (FloatOps.absf (F := Ideal) (φ := .f32) (z ⟨q.val - 2049, by have := q.isLt; omega⟩) + eps)

/-- The whole result array as a function of the two argument arrays. -/
def G (X : SX.Idx → EReal) (P : SP.Idx → EReal) : SO.Idx → EReal := fun j =>
  feat (rowProj (fun k => X (ix2 (⟨(j 0).val, idx2_lt0 j⟩ : Fin 16384) k)) P) ⟨(j 1).val, idx2_lt1 j⟩

/-- A block of 512 rows of the result as the same function of the matching 512 rows of X and of P. -/
def GB (x : SXB.Idx → EReal) (P : SP.Idx → EReal) : SOB.Idx → EReal := fun y =>
  feat (rowProj (fun k => x (ix2 (⟨(y 0).val, idx2_lt0 y⟩ : Fin 512) k)) P) ⟨(y 1).val, idx2_lt1 y⟩

theorem G_ix2 (X : SX.Idx → EReal) (P : SP.Idx → EReal) (r : Fin 16384) (q : Fin 2561) :
    G X P (ix2 r q) = feat (rowProj (fun k => X (ix2 r k)) P) q := rfl

theorem GB_ix2 (x : SXB.Idx → EReal) (P : SP.Idx → EReal) (p : Fin 512) (q : Fin 2561) :
    GB x P (ix2 p q) = feat (rowProj (fun k => x (ix2 p k)) P) q := rfl

/-- A block of the whole array is the block function of the matching rows of X: row `512·t + p` of X is row `p` of
    block `t`. -/
theorem G_block (X : SX.Idx → EReal) (P : SP.Idx → EReal) (xb : SXB.Idx → EReal) (r : Fin 16384) (p : Fin 512)
    (hx : ∀ k : Fin 2048, xb (ix2 p k) = X (ix2 r k)) (q : Fin 2561) :
    GB xb P (ix2 p q) = G X P (ix2 r q) := by
  rw [G_ix2, GB_ix2]
  exact congrArg (fun f => feat (rowProj f P) q) (funext hx)

end Cert.Spec

end
-- ==== Proof.KernelPayload.lean ====
/-
  The body's two stored values read entry by entry at the extended reals.
  The narrow store holds the constant one.  The wide store holds, for row p of the block and column q < 2560,
  output column q + 1 of the row whose projection is (row p of the X block) · P.

  The road: the product read at an entry is a row of X against a column of P; the specification's columns are
  read range by range; the slices, the spread column and the two concatenations are read at an entry; the wide
  value is then a function of the projected block alone, and its entries are matched with the specification's.
-/
import proofs.«405129_j481036337476_3_alg».proof.Proof.Gen.KernelIdeal.Skeleton
import proofs.«405129_j481036337476_3_alg».proof.Proof.Spec
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The narrow value is the constant one spread over a column. -/
theorem pay1_apply (p : Fin 512) (z : Fin 1) : k0_pay1 (F := Ideal) (ix2 p z) = Cert.Spec.one := rfl

/-! The product's operand indices, axis by axis. -/

theorem lhs_proj_0 (j : S512x512.Idx) (k : dot_S512x2048_S2048x512_S512x512_1_0_0_1_n_n.contr.Idx) :
    (dot_S512x2048_S2048x512_S512x512_1_0_0_1_n_n.lhsIdx j k 0 : ℕ) = j 0 := by
  simp [DotDims.lhsIdx, dot_S512x2048_S2048x512_S512x512_1_0_0_1_n_n]; rfl

theorem lhs_proj_1 (j : S512x512.Idx) (k : dot_S512x2048_S2048x512_S512x512_1_0_0_1_n_n.contr.Idx) :
    (dot_S512x2048_S2048x512_S512x512_1_0_0_1_n_n.lhsIdx j k 1 : ℕ) = k ⟨0, by decide⟩ :=
  dot_S512x2048_S2048x512_S512x512_1_0_0_1_n_n.lhsIdx_val_of_single rfl j k

theorem rhs_proj_0 (j : S512x512.Idx) (k : dot_S512x2048_S2048x512_S512x512_1_0_0_1_n_n.contr.Idx) :
    (dot_S512x2048_S2048x512_S512x512_1_0_0_1_n_n.rhsIdx j k 0 : ℕ) = k ⟨0, by decide⟩ :=
  dot_S512x2048_S2048x512_S512x512_1_0_0_1_n_n.rhsIdx_val_of_single rfl j k

theorem rhs_proj_1 (j : S512x512.Idx) (k : dot_S512x2048_S2048x512_S512x512_1_0_0_1_n_n.contr.Idx) :
    (dot_S512x2048_S2048x512_S512x512_1_0_0_1_n_n.rhsIdx j k 1 : ℕ) = j 1 := by
  simp [DotDims.rhsIdx, dot_S512x2048_S2048x512_S512x512_1_0_0_1_n_n]; rfl

/-- The product at an entry is the row of the left operand against the column of the right one. -/
theorem proj_apply (x0 : FVec Ideal S512x2048 .f32) (x1 : FVec Ideal S2048x512 .bf16)
    (h1 : FTy.bits .bf16 < FTy.bits .f32) (h2 : S2048x512.ShapeCasts S2048x512) (p c : Fin 512) :
    matmul (F := Ideal) (φ₁ := .bf16) (φ₂ := .bf16) dot_S512x2048_S2048x512_S512x512_1_0_0_1_n_n none (truncf (F := Ideal) .bf16 x0 h1)
        (shapeCast S2048x512 x1 h2) (constant (F := Ideal) S512x512 .f32 0x00000000#32) (ix2 p c)
      = Cert.Spec.rowProj (fun k => x0 (ix2 p k)) x1 c := by
  simp only [matmul]
  rw [Ideal.matmul_constant_zero_apply, shapeCast_self]
  unfold Cert.Spec.rowProj
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p c)
      ((contrEquiv1 dot_S512x2048_S2048x512_S512x512_1_0_0_1_n_n 2048 rfl rfl).symm k) = ix2 p k :=
    Shape.idx_ext₂ (lhs_proj_0 _ _) ((lhs_proj_1 _ _).trans hk)
  have er : dot_S512x2048_S2048x512_S512x512_1_0_0_1_n_n.rhsIdx (ix2 p c)
      ((contrEquiv1 dot_S512x2048_S2048x512_S512x512_1_0_0_1_n_n 2048 rfl rfl).symm k) = ix2 k c :=
    Shape.idx_ext₂ ((rhs_proj_0 _ _).trans hk) (rhs_proj_1 _ _)
  rw [el, er]
  rfl

/-! The specification's columns, one range at a time, at column n + 1. -/

section Feat
variable (z : Fin 512 → EReal) (n : Nat)

theorem feat_lin (h : n < 512) : Cert.Spec.feat z ⟨n + 1, by omega⟩ = z ⟨n, h⟩ := by
  unfold Cert.Spec.feat
  rw [if_neg (Nat.succ_ne_zero n), dif_pos (show n + 1 < 513 by omega)]
  exact congrArg z (Fin.ext (by show n + 1 - 1 = n; omega))

theorem feat_sq (h0 : 512 ≤ n) (h : n < 1024) :
    Cert.Spec.feat z ⟨n + 1, by omega⟩ = z ⟨n - 512, by omega⟩ * z ⟨n - 512, by omega⟩ := by
  unfold Cert.Spec.feat
  rw [if_neg (Nat.succ_ne_zero n), dif_neg (show ¬ n + 1 < 513 by omega), dif_pos (show n + 1 < 1025 by omega)]
  have e : (⟨n + 1 - 513, by omega⟩ : Fin 512) = ⟨n - 512, by omega⟩ := Fin.ext (by show n + 1 - 513 = n - 512; omega)
  rw [e]

theorem feat_cube (h0 : 1024 ≤ n) (h : n < 1536) :
    Cert.Spec.feat z ⟨n + 1, by omega⟩ = (z ⟨n - 1024, by omega⟩ * z ⟨n - 1024, by omega⟩) * z ⟨n - 1024, by omega⟩ := by
  unfold Cert.Spec.feat
  rw [if_neg (Nat.succ_ne_zero n), dif_neg (show ¬ n + 1 < 513 by omega), dif_neg (show ¬ n + 1 < 1025 by omega),
    dif_pos (show n + 1 < 1537 by omega)]
  have e : (⟨n + 1 - 1025, by omega⟩ : Fin 512) = ⟨n - 1024, by omega⟩ := Fin.ext (by show n + 1 - 1025 = n - 1024; omega)
  rw [e]

theorem feat_cross (h0 : 1536 ≤ n) (h : n < 2047) :
    Cert.Spec.feat z ⟨n + 1, by omega⟩ = z ⟨0, by omega⟩ * z ⟨n - 1536 + 1, by omega⟩ := by
  unfold Cert.Spec.feat
  rw [if_neg (Nat.succ_ne_zero n), dif_neg (show ¬ n + 1 < 513 by omega), dif_neg (show ¬ n + 1 < 1025 by omega),
    dif_neg (show ¬ n + 1 < 1537 by omega), dif_pos (show n + 1 < 2048 by omega)]
  have e : (⟨n + 1 - 1536, by omega⟩ : Fin 512) = ⟨n - 1536 + 1, by omega⟩ := Fin.ext (by show n + 1 - 1536 = n - 1536 + 1; omega)
  rw [e]

theorem feat_last (h : n = 2047) :
    Cert.Spec.feat z ⟨n + 1, by omega⟩ = z ⟨1, by omega⟩ * z ⟨2, by omega⟩ := by
  unfold Cert.Spec.feat
  rw [if_neg (Nat.succ_ne_zero n), dif_neg (show ¬ n + 1 < 513 by omega), dif_neg (show ¬ n + 1 < 1025 by omega),
    dif_neg (show ¬ n + 1 < 1537 by omega), dif_neg (show ¬ n + 1 < 2048 by omega), dif_pos (show n + 1 = 2048 by omega)]

theorem feat_sqrt (h0 : 2048 ≤ n) (h : n < 2560) :
    Cert.Spec.feat z ⟨n + 1, by omega⟩
      = Ideal.sqrt (FloatOps.absf (F := Ideal) (φ := .f32) (z ⟨n - 2048, by omega⟩) + Cert.Spec.eps) := by
  unfold Cert.Spec.feat
  rw [if_neg (Nat.succ_ne_zero n), dif_neg (show ¬ n + 1 < 513 by omega), dif_neg (show ¬ n + 1 < 1025 by omega),
    dif_neg (show ¬ n + 1 < 1537 by omega), dif_neg (show ¬ n + 1 < 2048 by omega), dif_neg (show ¬ n + 1 = 2048 by omega)]
  have e : (⟨n + 1 - 2049, by omega⟩ : Fin 512) = ⟨n - 2048, by omega⟩ := Fin.ext (by show n + 1 - 2049 = n - 2048; omega)
  rw [e]

end Feat

/-! The layout operations of the body read at an entry. -/

section Layout
variable {α : Type}

/-- A slice of columns: column c of the slice is column c + off of the operand. -/
theorem slice_cols {n : Nat} (off : Nat) (x : S512x512.Idx → α) (h : S512x512.Slices ![0, off] ⟨2, ![512, n]⟩)
    (p : Fin 512) (c : Fin n) (hc : c.val + off < 512) :
    extractStridedSlice ⟨2, ![512, n]⟩ ![0, off] x h (ix2 p c) = x (ix2 p ⟨c.val + off, hc⟩) :=
  extractStridedSlice_apply _ x h (ix2 p c) (ix2 p ⟨c.val + off, hc⟩) fun a =>
    match a with
    | ⟨0, _⟩ => by show p.val = 0 + p.val; omega
    | ⟨1, _⟩ => by show c.val + off = off + c.val; omega

/-- A column spread over all 512 columns reads the column's one entry of the row. -/
theorem bcast_col (x : S512x1.Idx → α) (h : S512x1.Broadcasts S512x512) (p c : Fin 512) :
    broadcastTo S512x512 x h (ix2 p c) = x (ix2 p (0 : Fin 1)) :=
  broadcastTo_apply x h (ix2 p c) (ix2 p (0 : Fin 1)) fun a => match a with | ⟨0, _⟩ => rfl | ⟨1, _⟩ => rfl

/-- 511 columns followed by one: the first 511 columns. -/
theorem cat2_left (a : S512x511.Idx → α) (b : S512x1.Idx → α) (h : Shape.Concatenates [S512x511, S512x1] S512x512 1)
    (p c : Fin 512) (hc : c.val < 511) :
    concatenate S512x512 1 [⟨S512x511, a⟩, ⟨S512x1, b⟩] h (ix2 p c) = a (ix2 p ⟨c.val, hc⟩) :=
  concatenate_apply_piece 1 [⟨S512x511, a⟩, ⟨S512x1, b⟩] h (ix2 p c) 0 (by show 0 < 2; omega) S512x511 a rfl rfl 0 rfl (ix2 p ⟨c.val, hc⟩)
    (fun b hb => match b with | ⟨0, _⟩ => rfl | ⟨1, _⟩ => absurd rfl hb) (by show 0 + c.val = c.val; omega)

/-- 511 columns followed by one: the last column. -/
theorem cat2_right (a : S512x511.Idx → α) (b : S512x1.Idx → α) (h : Shape.Concatenates [S512x511, S512x1] S512x512 1)
    (p c : Fin 512) (hc : c.val = 511) :
    concatenate S512x512 1 [⟨S512x511, a⟩, ⟨S512x1, b⟩] h (ix2 p c) = b (ix2 p (0 : Fin 1)) :=
  concatenate_apply_piece 1 [⟨S512x511, a⟩, ⟨S512x1, b⟩] h (ix2 p c) 1 (by show 1 < 2; omega) S512x1 b rfl rfl 511 rfl (ix2 p (0 : Fin 1))
    (fun b hb => match b with | ⟨0, _⟩ => rfl | ⟨1, _⟩ => absurd rfl hb) (by show 511 + 0 = c.val; omega)

/-- Five blocks of 512 columns side by side: column 512·k + r is column r of block k. -/
theorem cat5_apply (a0 a1 a2 a3 a4 : S512x512.Idx → α)
    (h : Shape.Concatenates [S512x512, S512x512, S512x512, S512x512, S512x512] S512x2560 1)
    (p : Fin 512) (q : Fin 2560) (r : Fin 512) :
    (0 + r.val = q.val → concatenate S512x2560 1 [⟨S512x512, a0⟩, ⟨S512x512, a1⟩, ⟨S512x512, a2⟩, ⟨S512x512, a3⟩, ⟨S512x512, a4⟩] h (ix2 p q) = a0 (ix2 p r))
    ∧ (512 + r.val = q.val → concatenate S512x2560 1 [⟨S512x512, a0⟩, ⟨S512x512, a1⟩, ⟨S512x512, a2⟩, ⟨S512x512, a3⟩, ⟨S512x512, a4⟩] h (ix2 p q) = a1 (ix2 p r))
    ∧ (1024 + r.val = q.val → concatenate S512x2560 1 [⟨S512x512, a0⟩, ⟨S512x512, a1⟩, ⟨S512x512, a2⟩, ⟨S512x512, a3⟩, ⟨S512x512, a4⟩] h (ix2 p q) = a2 (ix2 p r))
    ∧ (1536 + r.val = q.val → concatenate S512x2560 1 [⟨S512x512, a0⟩, ⟨S512x512, a1⟩, ⟨S512x512, a2⟩, ⟨S512x512, a3⟩, ⟨S512x512, a4⟩] h (ix2 p q) = a3 (ix2 p r))
    ∧ (2048 + r.val = q.val → concatenate S512x2560 1 [⟨S512x512, a0⟩, ⟨S512x512, a1⟩, ⟨S512x512, a2⟩, ⟨S512x512, a3⟩, ⟨S512x512, a4⟩] h (ix2 p q) = a4 (ix2 p r)) := by
  have hi : ∀ b : Fin S512x512.rank, b.cast (rfl : S512x512.rank = S512x2560.rank) ≠ 1 → ((ix2 p r) b).val = ((ix2 p q) (b.cast rfl)).val :=
    fun b hb => match b with | ⟨0, _⟩ => rfl | ⟨1, _⟩ => absurd rfl hb
  refine ⟨fun e => ?_, fun e => ?_, fun e => ?_, fun e => ?_, fun e => ?_⟩
  · exact concatenate_apply_piece 1 [⟨S512x512, a0⟩, ⟨S512x512, a1⟩, ⟨S512x512, a2⟩, ⟨S512x512, a3⟩, ⟨S512x512, a4⟩] h (ix2 p q) 0 (by show 0 < 5; omega) S512x512 a0 rfl rfl 0 rfl (ix2 p r) hi e
  · exact concatenate_apply_piece 1 [⟨S512x512, a0⟩, ⟨S512x512, a1⟩, ⟨S512x512, a2⟩, ⟨S512x512, a3⟩, ⟨S512x512, a4⟩] h (ix2 p q) 1 (by show 1 < 5; omega) S512x512 a1 rfl rfl 512 rfl (ix2 p r) hi e
  · exact concatenate_apply_piece 1 [⟨S512x512, a0⟩, ⟨S512x512, a1⟩, ⟨S512x512, a2⟩, ⟨S512x512, a3⟩, ⟨S512x512, a4⟩] h (ix2 p q) 2 (by show 2 < 5; omega) S512x512 a2 rfl rfl 1024 rfl (ix2 p r) hi e
  · exact concatenate_apply_piece 1 [⟨S512x512, a0⟩, ⟨S512x512, a1⟩, ⟨S512x512, a2⟩, ⟨S512x512, a3⟩, ⟨S512x512, a4⟩] h (ix2 p q) 3 (by show 3 < 5; omega) S512x512 a3 rfl rfl 1536 rfl (ix2 p r) hi e
  · exact concatenate_apply_piece 1 [⟨S512x512, a0⟩, ⟨S512x512, a1⟩, ⟨S512x512, a2⟩, ⟨S512x512, a3⟩, ⟨S512x512, a4⟩] h (ix2 p q) 4 (by show 4 < 5; omega) S512x512 a4 rfl rfl 2048 rfl (ix2 p r) hi e

end Layout

/-! The wide stored value as a function of the projected block, and its entries. -/

section Wide

/-- The block of cross terms the body builds from the projected block: 511 columns of (column 0) · (columns 1..511),
    then the one column (column 1) · (column 2). -/
def crossBlock (Z : FVec Ideal S512x512 .f32) : FVec Ideal S512x512 .f32 :=
  concatenate S512x512 1
    [⟨S512x511, extractStridedSlice S512x511 ![0, 1]
        (mulf (F := Ideal)
          (broadcastTo S512x512
            (shapeCast S512x1 (extractStridedSlice S512x1 ![0, 0] Z slices_S512x512_o0_0_S512x1) shapeCasts_S512x1_S512x1)
            broadcasts_S512x1_S512x512) Z)
        slices_S512x512_o0_1_S512x511⟩,
     ⟨S512x1, mulf (F := Ideal) (extractStridedSlice S512x1 ![0, 1] Z slices_S512x512_o0_1_S512x1)
        (extractStridedSlice S512x1 ![0, 2] Z slices_S512x512_o0_2_S512x1)⟩]
    concatenates_S512x511_S512x1_S512x512_d1

/-- The wide value the body stores, from the projected block: the block, its square, its cube, the cross terms and
    the square roots, side by side. -/
def wideBlock (Z : FVec Ideal S512x512 .f32) : FVec Ideal S512x2560 .f32 :=
  concatenate S512x2560 1
    [⟨S512x512, Z⟩, ⟨S512x512, mulf (F := Ideal) Z Z⟩, ⟨S512x512, mulf (F := Ideal) (mulf (F := Ideal) Z Z) Z⟩,
     ⟨S512x512, crossBlock Z⟩,
     ⟨S512x512, sqrt (F := Ideal) (addf (F := Ideal) (absf (F := Ideal) Z)
        (broadcast S512x512 (Scalar.ofBits (F := Ideal) .f32 0x322BCC77#32)))⟩]
    concatenates_S512x512_S512x512_S512x512_S512x512_S512x512_S512x2560_d1

variable (Z : FVec Ideal S512x512 .f32)

theorem crossBlock_lt (p c : Fin 512) (hc : c.val < 511) :
    crossBlock Z (ix2 p c) = Z (ix2 p ⟨0, by omega⟩) * Z (ix2 p ⟨c.val + 1, by omega⟩) := by
  unfold crossBlock
  refine (cat2_left _ _ _ p c hc).trans ?_
  refine (slice_cols 1 _ _ p ⟨c.val, hc⟩ (by show c.val + 1 < 512; omega)).trans ?_
  refine congrArg (· * Z (ix2 p ⟨c.val + 1, by omega⟩)) ?_
  refine (bcast_col _ _ p _).trans ?_
  rw [shapeCast_self]
  exact slice_cols 0 Z _ p (0 : Fin 1) (by decide)

theorem crossBlock_last (p c : Fin 512) (hc : c.val = 511) :
    crossBlock Z (ix2 p c) = Z (ix2 p ⟨1, by omega⟩) * Z (ix2 p ⟨2, by omega⟩) := by
  unfold crossBlock
  refine (cat2_right _ _ _ p c hc).trans ?_
  exact congrArg₂ (· * ·) (slice_cols 1 Z _ p (0 : Fin 1) (by decide)) (slice_cols 2 Z _ p (0 : Fin 1) (by decide))

/-- Column q of the wide value, in row p, is column q + 1 of the specification at row p of the projected block. -/
theorem wideBlock_apply (p : Fin 512) (q : Fin 2560) :
    wideBlock Z (ix2 p q) = Cert.Spec.feat (fun c => Z (ix2 p c)) ⟨q.val + 1, by omega⟩ := by
  obtain ⟨n, hn⟩ := q
  unfold wideBlock
  by_cases h1 : n < 512
  · exact ((cat5_apply _ _ _ _ _ _ p ⟨n, hn⟩ ⟨n, h1⟩).1 (by show 0 + n = n; omega)).trans
      (feat_lin (fun c => Z (ix2 p c)) n h1).symm
  by_cases h2 : n < 1024
  · exact ((cat5_apply _ _ _ _ _ _ p ⟨n, hn⟩ ⟨n - 512, by omega⟩).2.1 (by show 512 + (n - 512) = n; omega)).trans
      (feat_sq (fun c => Z (ix2 p c)) n (by omega) h2).symm
  by_cases h3 : n < 1536
  · exact ((cat5_apply _ _ _ _ _ _ p ⟨n, hn⟩ ⟨n - 1024, by omega⟩).2.2.1 (by show 1024 + (n - 1024) = n; omega)).trans
      (feat_cube (fun c => Z (ix2 p c)) n (by omega) h3).symm
  by_cases h4 : n < 2047
  · refine ((cat5_apply _ _ _ _ _ _ p ⟨n, hn⟩ ⟨n - 1536, by omega⟩).2.2.2.1 (by show 1536 + (n - 1536) = n; omega)).trans ?_
    exact (crossBlock_lt Z p ⟨n - 1536, by omega⟩ (by show n - 1536 < 511; omega)).trans
      (feat_cross (fun c => Z (ix2 p c)) n (by omega) h4).symm
  by_cases h5 : n = 2047
  · refine ((cat5_apply _ _ _ _ _ _ p ⟨n, hn⟩ ⟨n - 1536, by omega⟩).2.2.2.1 (by show 1536 + (n - 1536) = n; omega)).trans ?_
    exact (crossBlock_last Z p ⟨n - 1536, by omega⟩ (by show n - 1536 = 511; omega)).trans
      (feat_last (fun c => Z (ix2 p c)) n h5).symm
  · exact ((cat5_apply _ _ _ _ _ _ p ⟨n, hn⟩ ⟨n - 2048, by omega⟩).2.2.2.2 (by show 2048 + (n - 2048) = n; omega)).trans
      (feat_sqrt (fun c => Z (ix2 p c)) n (by omega) hn).symm

end Wide

theorem pay2_apply (x0 : Vec Ideal S512x2048 .f32) (x1 : Vec Ideal S2048x512 .bf16) (p : Fin 512) (q : Fin 2560) :
    k0_pay2 (F := Ideal) x0 x1 (ix2 p q)
      = Cert.Spec.feat (Cert.Spec.rowProj (fun k => x0 (ix2 p k)) x1) ⟨q.val + 1, by omega⟩ := by
  have e : k0_pay2 (F := Ideal) x0 x1
      = wideBlock (matmul (F := Ideal) (φ₁ := .bf16) (φ₂ := .bf16) dot_S512x2048_S2048x512_S512x512_1_0_0_1_n_n none
          (truncf (F := Ideal) .bf16 x0 Cert.KernelIdeal.Facts₀.bitsLt_bf16_f32)
          (shapeCast S2048x512 x1 Cert.KernelIdeal.Facts₀.shapeCasts_S2048x512_S2048x512)
          (constant (F := Ideal) S512x512 .f32 0x00000000#32)) := rfl
  rw [e]
  refine (wideBlock_apply _ p q).trans ?_
  exact congrArg (fun z => Cert.Spec.feat z ⟨q.val + 1, by omega⟩) (funext fun c => proj_apply x0 x1 _ _ p c)

end Cert.KernelIdeal.Block

end
-- ==== Proof.KernelBlock.lean ====
/-
  What one grid point leaves in the output's staging buffer, at the extended reals: the block function of the
  specification, of the point's 512 rows of X and of P.

  The body stores twice into the [512, 2561] block: a [512, 1] column of ones at column 0, and a [512, 2560] value at
  columns 1..2560. Each stored value agrees, entry by entry, with the block function read at the place the store puts
  the entry (column 0 for the first, column q + 1 for entry q of the second), and the two rectangles together cover the
  block; so the block read back is the block function everywhere.
-/
import proofs.«405129_j481036337476_3_alg».proof.Proof.Gen.KernelIdeal.Frame
import proofs.«405129_j481036337476_3_alg».proof.Proof.Spec
import proofs.«405129_j481036337476_3_alg».proof.Proof.KernelPayload
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open Idealize.ShloMosaic.Tactic

/-- The zero offsets, however they are spelt. -/
theorem out_hz : (![0, 0] : Fin 2 → Nat) = fun _ => 0 := funext fun a => by fin_cases a <;> rfl

/-- The narrow store: the column of ones sits at column 0 of the block, where the specification has its constant. -/
theorem out_piece_one (x0 : Vec Ideal S512x2048 .f32) (x1 : Vec Ideal S2048x512 .bf16) (x : S512x1.Idx) :
    k0_pay1 (F := Ideal) x
      = Cert.Spec.GB x0 x1 ((Rect.unit (s := S512x2561) ![0, 0] S512x1.size inb_S512x2561_S512x1_0_0).emb x) := by
  obtain ⟨p, z, rfl⟩ : ∃ (p : Fin 512) (z : Fin 1), x = ix2 p z := ⟨x 0, x 1, eq_ix2 x⟩
  have he : (Rect.unit (s := S512x2561) ![0, 0] S512x1.size inb_S512x2561_S512x1_0_0).emb (ix2 p z)
      = ix2 p (⟨0, by omega⟩ : Fin 2561) := by
    funext a; apply Fin.ext
    match a with
    | ⟨0, _⟩ => show 0 + 1 * p.val = p.val; omega
    | ⟨1, _⟩ => show 0 + 1 * z.val = 0; have := z.isLt; omega
  rw [he, Cert.Spec.GB_ix2, pay1_apply]
  unfold Cert.Spec.feat
  rw [if_pos rfl]

/-- The wide store: its column q sits at column q + 1 of the block. -/
theorem out_piece_rest (x0 : Vec Ideal S512x2048 .f32) (x1 : Vec Ideal S2048x512 .bf16) (x : S512x2560.Idx) :
    k0_pay2 (F := Ideal) x0 x1 x
      = Cert.Spec.GB x0 x1 ((Rect.unit (s := S512x2561) ![0, 1] S512x2560.size inb_S512x2561_S512x2560_0_1).emb x) := by
  obtain ⟨p, q, rfl⟩ : ∃ (p : Fin 512) (q : Fin 2560), x = ix2 p q := ⟨x 0, x 1, eq_ix2 x⟩
  have he : (Rect.unit (s := S512x2561) ![0, 1] S512x2560.size inb_S512x2561_S512x2560_0_1).emb (ix2 p q)
      = ix2 p (⟨q.val + 1, by omega⟩ : Fin 2561) := by
    funext a; apply Fin.ext
    match a with
    | ⟨0, _⟩ => show 0 + 1 * p.val = p.val; omega
    | ⟨1, _⟩ => show 1 + 1 * q.val = q.val + 1; omega
  rw [he, Cert.Spec.GB_ix2, pay2_apply]

/-- The block a grid point leaves is the specification's block function of the point's rows of X and of P: the two stored
    rectangles cover the block, and each stored entry is the block function at the place it is stored. -/
theorem out_eq (c : Dev nD) (i : grid0.Coords) (arg1 : Memref sig .tc .vmem S512x2048 .f32) (harg1 : arg1.IsWhole)
    (arg2 : Memref sig .tc .vmem S2048x512 .bf16) (harg2 : arg2.IsWhole) (arg3 : Memref sig .tc .vmem S512x2561 .f32) (harg3 : arg3.IsWhole)
    (x0 : Vec Ideal S512x2048 .f32) (x1 : Vec Ideal S2048x512 .bf16) :
    out0_A_2 (F := Ideal) c i arg1 harg1 arg2 harg2 arg3 harg3 x0 x1 = Cert.Spec.GB x0 x1 := by
  have hc := cover0_A_2 (F := Ideal) c i arg1 harg1 arg2 harg2 arg3 harg3 x0 x1
  unfold out0_A_2
  rw [View.read_writes_eq_canon _ _ _ hc]
  funext y
  refine View.canon_apply_of_pieces (Cert.Spec.GB x0 x1) _ ?_ y (hc y)
  clear hc
  unfold kernelRun0_A
  dsimp only
  sl_unfold_words
  simp only [View.readAt_eq_ld, harg1.read_unread, harg2.read_unread,
    View.ld_unit_zero (S := S512x2048) out_hz, View.ld_unit_zero (S := S2048x512) out_hz]
  intro p hp
  rcases List.mem_cons.mp hp with rfl | hp
  · exact out_piece_rest x0 x1
  rcases List.mem_cons.mp hp with rfl | hp
  · exact out_piece_one x0 x1
  · exact absurd hp List.not_mem_nil

end Cert.KernelIdeal.Block

end
-- ==== Proof.KernelArray.lean ====
/-
  From blocks to the array, for the kernel at the extended reals.

  The grid has 32 points.  Point t stages rows 512·t … 512·t + 511 of X, the whole of P (cast to a narrower float
  format on the host first: the identity on extended reals), and writes back rows 512·t … 512·t + 511 of the result.
  What the point leaves in the output's staging buffer is the block function of the specification, of that block of
  X and of P; row p of block t is row 512·t + p of the array, and the blocks of the 32 points cover the 16384
  rows, so the array ends holding the specification's whole-array function of X and P.
-/
import proofs.«405129_j481036337476_3_alg».proof.Defs
import proofs.«405129_j481036337476_3_alg».proof.Proof.Gen.KernelIdeal.Frame
import proofs.«405129_j481036337476_3_alg».proof.Proof.Gen.KernelIdeal.Value
import proofs.«405129_j481036337476_3_alg».proof.Proof.Spec
import proofs.«405129_j481036337476_3_alg».proof.Proof.KernelBlock
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.Value Idealize.ShloMosaic.ValueIdx

variable (m : (ℓ : Loc nD τ sig) → Buf (Elt Ideal) ℓ) (ρ : Dev nD → PrngReg)

/-- The two argument arrays as launched, as arrays of extended reals. -/
abbrev Xarr (c : Dev nD) : S16384x2048.Idx → EReal := m ((c : Thread nD τ).loc main_arg0)
abbrev Parr (c : Dev nD) : S2048x512.Idx → EReal := m ((c : Thread nD τ).loc main_arg1)

/-- Where each window's block sits at grid point t: X and the result at block row t, P at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block function agrees with the array function wherever the block's row of X is the array's row, the column is
    the same and P is the same: both are `feat` of one projected row. -/
theorem GB_eq_G_of (xb : Cert.Spec.SXB.Idx → EReal) (Pb P : Cert.Spec.SP.Idx → EReal) (X : Cert.Spec.SX.Idx → EReal)
    (y : Cert.Spec.SOB.Idx) (i : Cert.Spec.SO.Idx) (h1 : (i 1).val = (y 1).val)
    (hx : ∀ k : Fin 2048, xb (ix2 (⟨(y 0).val, idx2_lt0 y⟩ : Fin 512) k) = X (ix2 (⟨(i 0).val, idx2_lt0 i⟩ : Fin 16384) k))
    (hP : Pb = P) : Cert.Spec.GB xb Pb y = Cert.Spec.G X P i := by
  subst hP
  unfold Cert.Spec.GB Cert.Spec.G
  have e : (⟨(y 1).val, idx2_lt1 y⟩ : Fin 2561) = ⟨(i 1).val, idx2_lt1 i⟩ := Fin.ext h1.symm
  rw [e]
  exact congrArg (fun f => Cert.Spec.feat (Cert.Spec.rowProj f Pb) _) (funext hx)

/-- P as the region finds it: the host's change of float format is the identity on extended reals. -/
theorem V_main_v0 (c : Dev nD) : (V m c main_v0 : S2048x512.Idx → EReal) = Parr m c := by
  dsimp only [V, hostOps0]
  after_results
  rfl

/-- Row p of the X block at point t is row 512·t + p of X. -/
theorem iblk0_apply (c : Dev nD) (t : Fin cfg0.N) (p : Fin 512) (k : Fin 2048) (r : Fin 16384) (hr : r.val = 512 * t.val + p.val) :
    (iblk m c 0 t : Vec Ideal S512x2048 .f32) (ix2 p k) = Xarr m c (ix2 r k) := by
  obtain ⟨e0, e1, -, -, -, -⟩ := idx_facts t
  unfold iblk
  rw [View.read_apply]
  show V m c main_arg0 _ = m ((c : Thread nD τ).loc main_arg0) _
  rw [V_main_arg0]
  refine congrArg (m ((c : Thread nD τ).loc main_arg0)) ?_
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * k.val = k.val; rw [e1]; omega

/-- The P block at every point is the whole of P. -/
theorem iblk1_eq (c : Dev nD) (t : Fin cfg0.N) : (iblk m c 1 t : Vec Ideal S2048x512 .bf16) = Parr m c := by
  obtain ⟨-, -, e2, e3, -, -⟩ := idx_facts t
  unfold iblk
  funext z
  rw [View.read_apply]
  show (V m c main_v0 : S2048x512.Idx → EReal) _ = Parr m c z
  rw [V_main_v0]
  refine congrArg (Parr m c) ?_
  funext a
  apply Fin.ext
  match a with
  | ⟨0, _⟩ => show win0_1.index t (0 : Fin 2) * 2048 + 1 * (z 0).val = (z 0).val; rw [e2]; omega
  | ⟨1, _⟩ => show win0_1.index t (1 : Fin 2) * 512 + 1 * (z 1).val = (z 1).val; rw [e3]; omega

/-- What point t writes back is block t of the specification's array function of X and P. -/
theorem flushed_eq (c : Dev nD) (t : Fin cfg0.N) :
    (dats m 0 c).flushed 2 t = ((cfg0.win 2).blk t).view.read (Elt Ideal) (Cert.Spec.G (Xarr m c) (Parr m c)) := by
  rw [flushed2_A, Cert.KernelIdeal.Block.out_eq]
  obtain ⟨-, -, -, -, e4, e5⟩ := idx_facts t
  funext y
  show Cert.Spec.GB (iblk m c 0 t) (iblk m c 1 t) y = Cert.Spec.G (Xarr m c) (Parr m c) (((cfg0.win 2).blk t).view.emb y)
  refine GB_eq_G_of _ _ _ _ y _ ?_ (fun k => ?_) (iblk1_eq m c t)
  · show win0_2.index t (1 : Fin 2) * 2561 + 1 * (y 1).val = (y 1).val
    rw [e5]; omega
  · refine iblk0_apply m c t _ k _ ?_
    show win0_2.index t (0 : Fin 2) * 512 + 1 * (y 0).val = 512 * t.val + (y 0).val
    rw [e4]; omega

/-- Every index of the result array lies in the block of the point that holds its row. -/
theorem covered (i : S16384x2561.Idx) :
    ∃ t : Fin cfg0.N, (cfg0.win 2).flush t = true ∧ i ∈ ((cfg0.win 2).blk t).view.set := by
  have hN : cfg0.N = 32 := N_0
  have h0 : (i 0).val < 16384 := (i 0).isLt
  have h1 : (i 1).val < 2561 := (i 1).isLt
  obtain ⟨t, ht⟩ : ∃ t : Fin cfg0.N, t.val = (i 0).val / 512 := ⟨⟨(i 0).val / 512, by rw [hN]; omega⟩, rfl⟩
  obtain ⟨-, -, -, -, e4, e5⟩ := idx_facts t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 2561 ≤ (i 1).val ∧ (i 1).val < win0_2.index t (1 : Fin 2) * 2561 + 2561
    rw [e5]; omega

/-- The result array after the run is the specification's function of X and P. -/
theorem final (c : Dev nD) : (dats m 0 c).arrAt 2 cfg0.N = Cert.Spec.G (Xarr m c) (Parr m c) :=
  (dats m 0 c).arrAt_eq_of_cover 2 (Cert.Spec.G (Xarr m c) (Parr m c)) (fun t _ => flushed_eq m c t) covered

/-- The kernel's run: the result array at the specification's function of the arguments, the arguments unchanged. -/
theorem run : θ_run defs (onTc (τ := τ) (main (F := Ideal))) ⟨m, fun _ => 0, ρ⟩ fun r => ∀ c : Dev nD,
      r.2.mem ((c : Thread nD τ).loc main_v1) = Cert.Spec.G (Xarr m c) (Parr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrValue

end
-- ==== Proof.RefTerm.lean ====
/-
  The reference's result as ONE term of its two argument arrays: the operations of its @main composed, in order.

  Z = X · P by the host's dot_general.  The two tables of pair indices (512 entries each) are literal; each
  passes the usual "negative index counts from the end" wrap — entries below zero are moved up by 512, and no
  entry is — and is laid out as a column of start indices for a gather along Z's columns.  The cross terms are the
  product of the two gathered arrays.  The result concatenates, along the columns: the constant-one column, Z, its
  square, its cube, the cross terms, and sqrt(|Z| + ε).
-/
import proofs.«405129_j481036337476_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The first table of pair indices (the smaller index of each pair), as @main's first constant holds it. -/
def tblI : (⟨S512, .i32⟩ : BufTy).Contents (Elt F) := fun i => lit0 (S512.rowMajor i)

/-- The second table of pair indices (the larger index of each pair), as @main's second constant holds it. -/
def tblJ : (⟨S512, .i32⟩ : BufTy).Contents (Elt F) := fun i => lit1 (S512.rowMajor i)

/-- A table with its negative entries moved up by 512, laid out as a column of start indices. -/
def wrapCol (tbl : (⟨S512, .i32⟩ : BufTy).Contents (Elt F)) : (⟨S512x1, .i32⟩ : BufTy).Contents (Elt F) :=
  (broadcastInDim S512x1 ![0] bcast_S512_S512x1_0 : (⟨S512, .i32⟩ : BufTy).Contents (Elt F) → (⟨S512x1, .i32⟩ : BufTy).Contents (Elt F))
    ((select : (⟨S512, .i1⟩ : BufTy).Contents (Elt F) → (⟨S512, .i32⟩ : BufTy).Contents (Elt F) → (⟨S512, .i32⟩ : BufTy).Contents (Elt F) → (⟨S512, .i32⟩ : BufTy).Contents (Elt F))
      ((cmpi .slt : (⟨S512, .i32⟩ : BufTy).Contents (Elt F) → (⟨S512, .i32⟩ : BufTy).Contents (Elt F) → (⟨S512, .i1⟩ : BufTy).Contents (Elt F)) tbl
        ((broadcastInDim S512 ![] bcast_S_S512 : (⟨S_, .i32⟩ : BufTy).Contents (Elt F) → (⟨S512, .i32⟩ : BufTy).Contents (Elt F)) (constantI S_ 32 0#32)))
      ((addi : (⟨S512, .i32⟩ : BufTy).Contents (Elt F) → (⟨S512, .i32⟩ : BufTy).Contents (Elt F) → (⟨S512, .i32⟩ : BufTy).Contents (Elt F)) tbl
        ((broadcastInDim S512 ![] bcast_S_S512 : (⟨S_, .i32⟩ : BufTy).Contents (Elt F) → (⟨S512, .i32⟩ : BufTy).Contents (Elt F)) (constantI S_ 32 512#32)))
      tbl)

/-- Z = X · P. -/
def proj (X : (⟨S16384x2048, .f32⟩ : BufTy).Contents (Elt F)) (P : (⟨S2048x512, .f32⟩ : BufTy).Contents (Elt F)) :
    (⟨S16384x512, .f32⟩ : BufTy).Contents (Elt F) :=
  Host.dotGeneral dot_S16384x2048_S2048x512_S16384x512_1_0_0_1_n_n none X P

/-- Z with its columns picked by a column of start indices. -/
def pick (Z : (⟨S16384x512, .f32⟩ : BufTy).Contents (Elt F)) (idx : (⟨S512x1, .i32⟩ : BufTy).Contents (Elt F)) :
    (⟨S16384x512, .f32⟩ : BufTy).Contents (Elt F) :=
  Host.gather gather_S16384x512_S512x1_S16384x512_0_1_n_n_1_1_163841 Z idx

/-- The result as a function of Z. -/
def ofProj (Z : (⟨S16384x512, .f32⟩ : BufTy).Contents (Elt F)) : (⟨S16384x2561, .f32⟩ : BufTy).Contents (Elt F) :=
  concatenate S16384x2561 1
    [⟨S16384x1, (broadcastInDim S16384x1 ![] bcast_S_S16384x1 : (⟨S_, .f32⟩ : BufTy).Contents (Elt F) → (⟨S16384x1, .f32⟩ : BufTy).Contents (Elt F)) (constant S_ .f32 0x3F800000#32)⟩,
     ⟨S16384x512, Z⟩,
     ⟨S16384x512, (mulf : (⟨S16384x512, .f32⟩ : BufTy).Contents (Elt F) → (⟨S16384x512, .f32⟩ : BufTy).Contents (Elt F) → (⟨S16384x512, .f32⟩ : BufTy).Contents (Elt F)) Z Z⟩,
     ⟨S16384x512, (mulf : (⟨S16384x512, .f32⟩ : BufTy).Contents (Elt F) → (⟨S16384x512, .f32⟩ : BufTy).Contents (Elt F) → (⟨S16384x512, .f32⟩ : BufTy).Contents (Elt F)) (mulf Z Z) Z⟩,
     ⟨S16384x512, (mulf : (⟨S16384x512, .f32⟩ : BufTy).Contents (Elt F) → (⟨S16384x512, .f32⟩ : BufTy).Contents (Elt F) → (⟨S16384x512, .f32⟩ : BufTy).Contents (Elt F)) (pick Z (wrapCol tblI)) (pick Z (wrapCol tblJ))⟩,
     ⟨S16384x512, (Host.sqrt : (⟨S16384x512, .f32⟩ : BufTy).Contents (Elt F) → (⟨S16384x512, .f32⟩ : BufTy).Contents (Elt F))
        ((addf : (⟨S16384x512, .f32⟩ : BufTy).Contents (Elt F) → (⟨S16384x512, .f32⟩ : BufTy).Contents (Elt F) → (⟨S16384x512, .f32⟩ : BufTy).Contents (Elt F))
          ((Host.absf : (⟨S16384x512, .f32⟩ : BufTy).Contents (Elt F) → (⟨S16384x512, .f32⟩ : BufTy).Contents (Elt F)) Z)
          ((broadcastInDim S16384x512 ![] bcast_S_S16384x512 : (⟨S_, .f32⟩ : BufTy).Contents (Elt F) → (⟨S16384x512, .f32⟩ : BufTy).Contents (Elt F)) (constant S_ .f32 0x322BCC77#32)))⟩]
    concatenates_S16384x1_S16384x512_S16384x512_S16384x512_S16384x512_S16384x512_S16384x2561_d1

/-- The reference's result as a function of its two argument arrays. -/
def refTerm (X : (⟨S16384x2048, .f32⟩ : BufTy).Contents (Elt F)) (P : (⟨S2048x512, .f32⟩ : BufTy).Contents (Elt F)) :
    (⟨S16384x2561, .f32⟩ : BufTy).Contents (Elt F) :=
  ofProj (proj X P)

end Cert.ReferenceIdeal.RefValue

end
-- ==== Proof.LibNary6.lean ====
/-
  A host operation of six operands, read at its result.

  A host operation over a literal family of six operand buffers leaves, in its result buffer, its function applied
  to the six operands' contents.  Here each operand's contents is read AT ITS OWN BUFFER rather than through the
  family, so that, along a straight line of operations, each can in turn be read further back to the operation that
  wrote it.  (The library states this for families of up to four operands; a concatenation of six arrays needs six.)
-/
import Idealize.ShloMosaic.Lib.StableHlo.Run

noncomputable section

namespace Cert.Lib.SixOperands

open Idealize.ShloMosaic Idealize.ShloMosaic.TcCoe Idealize.SL.Sem Idealize.ShloMosaic.StableHlo

variable {T : Topo} {sg : RefSig} {Val : EltTy → Type} {x0 x1 x2 x3 x4 x5 y : Ref sg .tc}

/-- The result buffer of a six-operand operation holds the operation's function of the six operands' contents, each
    read at its own buffer. -/
theorem nary6_result
    (f : ((k : Fin 6) → ((![x0, x1, x2, x3, x4, x5] : Fin 6 → Ref sg .tc) k).ty.Contents Val) → y.ty.Contents Val) (hxs hy)
    (V : Valuation T sg Val) :
    (nary (τ := T) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) := by
  rw [nary_result]; congr 1; funext k; fin_cases k <;> rfl

/-- The same with the result reference left out of the rewriting index, for use by `simp`. -/
theorem nary6_result'
    (f : ((k : Fin 6) → ((![x0, x1, x2, x3, x4, x5] : Fin 6 → Ref sg .tc) k).ty.Contents Val) → y.ty.Contents Val) (hxs hy)
    (V : Valuation T sg Val) :
    (nary (τ := T) ![x0, x1, x2, x3, x4, x5] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5)) (fun i => i.elim0))))))) :=
  nary6_result f hxs hy V

end Cert.Lib.SixOperands

end
-- ==== Proof.RefRun.lean ====
/-
  The reference's run: every weakly fair execution of its @main terminates with the result array at the composed
  term of the two argument arrays, and the arguments unchanged.

  @main is a straight line of 32 host operations, each writing one buffer of its own.  So what a buffer holds at the
  end is read off the line from the back: the operation that writes the buffer applies its function to what its operands
  hold before it, and every other operation leaves the buffer alone.  Reading the result buffer in this way gives the
  concatenation of the six computed arrays, each in turn read back to the two arguments; that is the composed term.
-/
import proofs.«405129_j481036337476_3_alg».proof.Proof.RefTerm
import proofs.«405129_j481036337476_3_alg».proof.Proof.LibNary6
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Lib.SixOperands

variable {F : FTy → Type} [FloatOps F]

/-- @main's 32 operations, in order. -/
abbrev ops : List (HloOp τ sig (Elt F)) :=
  [ nullary main_c (fun i => lit0 (S512.rowMajor i)),
    nullary main_c_0 (fun i => lit1 (S512.rowMajor i)),
    binary main_arg0 main_arg1 main_v0 ((fun l r => Host.dotGeneral dot_S16384x2048_S2048x512_S16384x512_1_0_0_1_n_n none l r) : (⟨S16384x2048, .f32⟩ : BufTy).Contents (Elt F) → (⟨S2048x512, .f32⟩ : BufTy).Contents (Elt F) → (⟨S16384x512, .f32⟩ : BufTy).Contents (Elt F)),
    nullary main_cst (constant S_ .f32 0x3F800000#32),
    unary main_cst main_v1 (broadcastInDim S16384x1 ![] bcast_S_S16384x1 : (⟨S_, .f32⟩ : BufTy).Contents (Elt F) → (⟨S16384x1, .f32⟩ : BufTy).Contents (Elt F)),
    binary main_v0 main_v0 main_v2 (mulf : (⟨S16384x512, .f32⟩ : BufTy).Contents (Elt F) → (⟨S16384x512, .f32⟩ : BufTy).Contents (Elt F) → (⟨S16384x512, .f32⟩ : BufTy).Contents (Elt F)),
    binary main_v2 main_v0 main_v3 (mulf : (⟨S16384x512, .f32⟩ : BufTy).Contents (Elt F) → (⟨S16384x512, .f32⟩ : BufTy).Contents (Elt F) → (⟨S16384x512, .f32⟩ : BufTy).Contents (Elt F)),
    nullary main_c_1 (constantI S_ 32 0#32),
    unary main_c_1 main_v4 (broadcastInDim S512 ![] bcast_S_S512 : (⟨S_, .i32⟩ : BufTy).Contents (Elt F) → (⟨S512, .i32⟩ : BufTy).Contents (Elt F)),
    binary main_c main_v4 main_v5 (cmpi .slt : (⟨S512, .i32⟩ : BufTy).Contents (Elt F) → (⟨S512, .i32⟩ : BufTy).Contents (Elt F) → (⟨S512, .i1⟩ : BufTy).Contents (Elt F)),
    nullary main_c_2 (constantI S_ 32 512#32),
    unary main_c_2 main_v6 (broadcastInDim S512 ![] bcast_S_S512 : (⟨S_, .i32⟩ : BufTy).Contents (Elt F) → (⟨S512, .i32⟩ : BufTy).Contents (Elt F)),
    binary main_c main_v6 main_v7 (addi : (⟨S512, .i32⟩ : BufTy).Contents (Elt F) → (⟨S512, .i32⟩ : BufTy).Contents (Elt F) → (⟨S512, .i32⟩ : BufTy).Contents (Elt F)),
    ternary main_v5 main_v7 main_c main_v8 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v8 main_v9 (broadcastInDim S512x1 ![0] bcast_S512_S512x1_0 : (⟨S512, .i32⟩ : BufTy).Contents (Elt F) → (⟨S512x1, .i32⟩ : BufTy).Contents (Elt F)),
    binary main_v0 main_v9 main_v10 ((fun x i => Host.gather gather_S16384x512_S512x1_S16384x512_0_1_n_n_1_1_163841 x i) : (⟨S16384x512, .f32⟩ : BufTy).Contents (Elt F) → (⟨S512x1, .i32⟩ : BufTy).Contents (Elt F) → (⟨S16384x512, .f32⟩ : BufTy).Contents (Elt F)),
    nullary main_c_3 (constantI S_ 32 0#32),
    unary main_c_3 main_v11 (broadcastInDim S512 ![] bcast_S_S512 : (⟨S_, .i32⟩ : BufTy).Contents (Elt F) → (⟨S512, .i32⟩ : BufTy).Contents (Elt F)),
    binary main_c_0 main_v11 main_v12 (cmpi .slt : (⟨S512, .i32⟩ : BufTy).Contents (Elt F) → (⟨S512, .i32⟩ : BufTy).Contents (Elt F) → (⟨S512, .i1⟩ : BufTy).Contents (Elt F)),
    nullary main_c_4 (constantI S_ 32 512#32),
    unary main_c_4 main_v13 (broadcastInDim S512 ![] bcast_S_S512 : (⟨S_, .i32⟩ : BufTy).Contents (Elt F) → (⟨S512, .i32⟩ : BufTy).Contents (Elt F)),
    binary main_c_0 main_v13 main_v14 (addi : (⟨S512, .i32⟩ : BufTy).Contents (Elt F) → (⟨S512, .i32⟩ : BufTy).Contents (Elt F) → (⟨S512, .i32⟩ : BufTy).Contents (Elt F)),
    ternary main_v12 main_v14 main_c_0 main_v15 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v15 main_v16 (broadcastInDim S512x1 ![0] bcast_S512_S512x1_0 : (⟨S512, .i32⟩ : BufTy).Contents (Elt F) → (⟨S512x1, .i32⟩ : BufTy).Contents (Elt F)),
    binary main_v0 main_v16 main_v17 ((fun x i => Host.gather gather_S16384x512_S512x1_S16384x512_0_1_n_n_1_1_163841 x i) : (⟨S16384x512, .f32⟩ : BufTy).Contents (Elt F) → (⟨S512x1, .i32⟩ : BufTy).Contents (Elt F) → (⟨S16384x512, .f32⟩ : BufTy).Contents (Elt F)),
    binary main_v10 main_v17 main_v18 (mulf : (⟨S16384x512, .f32⟩ : BufTy).Contents (Elt F) → (⟨S16384x512, .f32⟩ : BufTy).Contents (Elt F) → (⟨S16384x512, .f32⟩ : BufTy).Contents (Elt F)),
    unary main_v0 main_v19 (Host.absf : (⟨S16384x512, .f32⟩ : BufTy).Contents (Elt F) → (⟨S16384x512, .f32⟩ : BufTy).Contents (Elt F)),
    nullary main_cst_5 (constant S_ .f32 0x322BCC77#32),
    unary main_cst_5 main_v20 (broadcastInDim S16384x512 ![] bcast_S_S16384x512 : (⟨S_, .f32⟩ : BufTy).Contents (Elt F) → (⟨S16384x512, .f32⟩ : BufTy).Contents (Elt F)),
    binary main_v19 main_v20 main_v21 (addf : (⟨S16384x512, .f32⟩ : BufTy).Contents (Elt F) → (⟨S16384x512, .f32⟩ : BufTy).Contents (Elt F) → (⟨S16384x512, .f32⟩ : BufTy).Contents (Elt F)),
    unary main_v21 main_v22 (Host.sqrt : (⟨S16384x512, .f32⟩ : BufTy).Contents (Elt F) → (⟨S16384x512, .f32⟩ : BufTy).Contents (Elt F)),
    nary ![main_v1, main_v0, main_v2, main_v3, main_v18, main_v22] main_v23 (fun u => concatenate S16384x2561 1 [⟨S16384x1, u 0⟩, ⟨S16384x512, u 1⟩, ⟨S16384x512, u 2⟩, ⟨S16384x512, u 3⟩, ⟨S16384x512, u 4⟩, ⟨S16384x512, u 5⟩] concatenates_S16384x1_S16384x512_S16384x512_S16384x512_S16384x512_S16384x512_S16384x2561_d1) ]

set_option maxRecDepth 4096 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., unary_bufs_sub .., nary_bufs_sub ..⟩

/-- What the result buffer holds after the line, from any contents `V`: the composed term of the two arguments. -/
theorem after_v23 (V : Valuation τ sig (Elt F)) :
    after ops V (Proc.devRef .tc main_v23) = refTerm (V (Proc.devRef .tc main_arg0)) (V (Proc.devRef .tc main_arg1)) := by
  simp (disch := decide) only [after_cons, after_nil, nary6_result', nullary_result', unary_result', binary_result',
    ternary_result', nullary_result_ne', unary_result_ne', binary_result_ne', ternary_result_ne', nary_result_ne']
  rfl

/-- No operation of the line writes an argument. -/
theorem after_arg0 (V : Valuation τ sig (Elt F)) :
    after ops V (Proc.devRef .tc main_arg0) = V (Proc.devRef .tc main_arg0) := by
  simp (disch := decide) only [after_cons, after_nil, nullary_result_ne', unary_result_ne', binary_result_ne',
    ternary_result_ne', nary_result_ne']

theorem after_arg1 (V : Valuation τ sig (Elt F)) :
    after ops V (Proc.devRef .tc main_arg1) = V (Proc.devRef .tc main_arg1) := by
  simp (disch := decide) only [after_cons, after_nil, nullary_result_ne', unary_result_ne', binary_result_ne',
    ternary_result_ne', nary_result_ne']

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (after_v23 _),
      (h c main_arg0).trans (after_arg0 _),
      (h c main_arg1).trans (after_arg1 _)⟩)
    (run_seq scopedRefs_eq scopedSems_eq defs main (fun _ => ops) main_eq (fun _ => ops_sub) m ρ)

end Cert.ReferenceIdeal.RefValue

end
-- ==== Proof.RefTables.lean ====
/-
  The two tables of pair indices, after the wrap of negative entries, read entry by entry.
  The first 511 pairs are (0, 1), (0, 2), …, (0, 511); the last is (1, 2).

  The wrap acts entry by entry: an entry that is negative as a signed word is moved up by 512, any other is kept.
  The column layout only renames the position: row `j` of the column is entry `j` of the table.  So the wrapped
  column at row `j` is the wrap of the literal's entry `j`, and what is left is a statement about 512 literal words,
  each below 512 (so none is moved), which is checked entry by entry by evaluation.
-/
import proofs.«405129_j481036337476_3_alg».proof.Proof.RefTerm
import Idealize.ShloMosaic.Lib.ValueIdx

noncomputable section

namespace Cert.ReferenceIdeal.RefValue

open Cert.ReferenceIdeal Cert.ReferenceIdeal.Gen Idealize.ShloMosaic Idealize.ShloMosaic.ValueIdx

variable {F : FTy → Type} [FloatOps F]

/-- The wrap of one entry: moved up by 512 when it is negative as a signed word, kept otherwise. -/
def wrap1 (e : BitVec 32) : BitVec 32 :=
  Scalar.select (IntOp.cmpi .slt e 0#32) (IntOp.addi e 512#32) e

/-- A table laid out as a column: row `j` of the column is entry `j` of the table. -/
theorem column_apply (v : (⟨S512, .i32⟩ : BufTy).Contents (Elt F)) (j : Fin 512) :
    (broadcastInDim S512x1 ![0] bcast_S512_S512x1_0 v : (⟨S512x1, .i32⟩ : BufTy).Contents (Elt F)) (ix2 j (0 : Fin 1)) = v (ix1 j) := by
  unfold broadcastInDim
  congr 1
  funext a
  match a with
  | ⟨0, _⟩ =>
    apply Fin.ext
    split
    · next h1 => exact ((by decide : ¬ ((512 : Nat) = 1)) h1).elim
    · rfl

/-- The wrapped column at row `j` is the wrap of the table's entry `j`: the compare, the sum and the choice are
    all entry by entry, and the two splat constants are 0 and 512 at every entry. -/
theorem wrapCol_apply (tbl : (⟨S512, .i32⟩ : BufTy).Contents (Elt F)) (j : Fin 512) :
    wrapCol (F := F) tbl (ix2 j (0 : Fin 1)) = wrap1 (tbl (ix1 j)) := by
  unfold wrapCol
  rw [column_apply]
  rfl

/-- Entry `j` of the first table is the literal's word `j`: a rank-1 index's row-major position is its coordinate. -/
theorem tblI_apply (j : Fin 512) : tblI (F := F) (ix1 j) = lit0 j :=
  congrArg lit0 (Fin.ext (Shape.rowMajor_val_one (ix1 j)))

/-- Entry `j` of the second table is the literal's word `j`. -/
theorem tblJ_apply (j : Fin 512) : tblJ (F := F) (ix1 j) = lit1 j :=
  congrArg lit1 (Fin.ext (Shape.rowMajor_val_one (ix1 j)))

/-- The first literal, wrapped and read as a signed integer: 0 at the first 511 entries, 1 at the last.
    All 512 entries are evaluated. -/
theorem wrap_lit0 : ∀ j : Fin 512, (wrap1 (lit0 j)).toInt.toNat = if j.val < 511 then 0 else 1 := by
  decide +kernel

/-- The second literal, wrapped and read as a signed integer: `j + 1` at the first 511 entries, 2 at the last.
    All 512 entries are evaluated. -/
theorem wrap_lit1 : ∀ j : Fin 512, (wrap1 (lit1 j)).toInt.toNat = if j.val < 511 then j.val + 1 else 2 := by
  decide +kernel

/-- Entry `j` of the first table's column, read as a signed integer: the smaller index of pair `j`. -/
theorem wrapI_val (j : Fin 512) :
    ((wrapCol (F := F) tblI) (ix2 j (0 : Fin 1))).toInt.toNat = if j.val < 511 then 0 else 1 := by
  rw [wrapCol_apply, tblI_apply]
  exact wrap_lit0 j

/-- Entry `j` of the second table's column, read as a signed integer: the larger index of pair `j`. -/
theorem wrapJ_val (j : Fin 512) :
    ((wrapCol (F := F) tblJ) (ix2 j (0 : Fin 1))).toInt.toNat = if j.val < 511 then j.val + 1 else 2 := by
  rw [wrapCol_apply, tblJ_apply]
  exact wrap_lit1 j

end Cert.ReferenceIdeal.RefValue

end
-- ==== Proof.RefRead.lean ====
/-
  The reference's term, read index by index at the extended reals, is the specification.

  Entry (r, c) of X · P is the sum over k of X[r,k] · P[k,c]: the host's product read at an entry, its contraction
  index renamed to 0 … 2047.  A gather along the columns, read at (r, j), is row r of its operand at the column the
  j-th start index names, clamped to 0 … 511; with the two tables' entries known (0 and j + 1 for j < 511, then 1
  and 2) cross term j of row r is Z[r,0] · Z[r,j+1], and the last one Z[r,1] · Z[r,2].  The concatenation along the
  columns, read at column q, is the piece whose span holds q, at q less the columns before it: column 0 is the
  constant, columns 1 … 512 are Z, and so on in steps of 512.  Range by range these are the specification's columns,
  the square root and the absolute value being the same functions of an extended real on the host as in the
  specification.
-/
import proofs.«405129_j481036337476_3_alg».proof.Proof.RefTerm
import proofs.«405129_j481036337476_3_alg».proof.Proof.RefTables
import proofs.«405129_j481036337476_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The projected array at an index

The product X · P contracts X's second axis with P's first.  At result index (r, c) and contraction position k the
left operand is read at (r, k) and the right one at (k, c): one small fact per operand axis, then the sum over the
one-axis contraction index is re-indexed to a sum over `Fin 2048`. -/

/-- Left operand, row axis: the result's row. -/
theorem lhs_proj_0 (i : S16384x512.Idx) (q : dot_S16384x2048_S2048x512_S16384x512_1_0_0_1_n_n.contr.Idx) :
    (dot_S16384x2048_S2048x512_S16384x512_1_0_0_1_n_n.lhsIdx i q 0).val = (i 0).val := by
  unfold DotDims.lhsIdx
  rw [dif_neg (show ¬(0 : Fin S16384x2048.rank) ∈ dot_S16384x2048_S2048x512_S16384x512_1_0_0_1_n_n.lhsBatch by decide),
    dif_pos (show (0 : Fin S16384x2048.rank) ∈ dot_S16384x2048_S2048x512_S16384x512_1_0_0_1_n_n.lhsNonContracting by decide)]
  rfl

/-- Left operand, column axis: the contraction position. -/
theorem lhs_proj_1 (i : S16384x512.Idx) (q : dot_S16384x2048_S2048x512_S16384x512_1_0_0_1_n_n.contr.Idx) :
    (dot_S16384x2048_S2048x512_S16384x512_1_0_0_1_n_n.lhsIdx i q 1).val = (q ⟨0, by decide⟩).val :=
  dot_S16384x2048_S2048x512_S16384x512_1_0_0_1_n_n.lhsIdx_val_of_single rfl i q

/-- Right operand, row axis: the contraction position. -/
theorem rhs_proj_0 (i : S16384x512.Idx) (q : dot_S16384x2048_S2048x512_S16384x512_1_0_0_1_n_n.contr.Idx) :
    (dot_S16384x2048_S2048x512_S16384x512_1_0_0_1_n_n.rhsIdx i q 0).val = (q ⟨0, by decide⟩).val :=
  dot_S16384x2048_S2048x512_S16384x512_1_0_0_1_n_n.rhsIdx_val_of_single rfl i q

/-- Right operand, column axis: the result's column. -/
theorem rhs_proj_1 (i : S16384x512.Idx) (q : dot_S16384x2048_S2048x512_S16384x512_1_0_0_1_n_n.contr.Idx) :
    (dot_S16384x2048_S2048x512_S16384x512_1_0_0_1_n_n.rhsIdx i q 1).val = (i 1).val := by
  unfold DotDims.rhsIdx
  rw [dif_neg (show ¬(1 : Fin S2048x512.rank) ∈ dot_S16384x2048_S2048x512_S16384x512_1_0_0_1_n_n.rhsBatch by decide),
    dif_pos (show (1 : Fin S2048x512.rank) ∈ dot_S16384x2048_S2048x512_S16384x512_1_0_0_1_n_n.rhsNonContracting by decide)]
  rfl

/-- Entry (r, c) of X · P is row r of X against column c of P. -/
theorem proj_apply (X : (⟨S16384x2048, .f32⟩ : BufTy).Contents (Elt Ideal)) (P : (⟨S2048x512, .f32⟩ : BufTy).Contents (Elt Ideal))
    (r : Fin 16384) (c : Fin 512) :
    proj (F := Ideal) X P (ix2 r c) = Cert.Spec.rowProj (fun k => X (ix2 r k)) P c := by
  unfold proj Cert.Spec.rowProj
  simp only [Host.dotGeneral]
  rw [Ideal.dotGeneral_apply,
    ← Equiv.sum_comp (contrEquiv1 dot_S16384x2048_S2048x512_S16384x512_1_0_0_1_n_n 2048 rfl rfl).symm]
  refine Finset.sum_congr rfl fun k _ => ?_
  have hk := contrEquiv1_symm_val dot_S16384x2048_S2048x512_S16384x512_1_0_0_1_n_n 2048 rfl rfl k
  have el : dot_S16384x2048_S2048x512_S16384x512_1_0_0_1_n_n.lhsIdx (ix2 r c)
      ((contrEquiv1 dot_S16384x2048_S2048x512_S16384x512_1_0_0_1_n_n 2048 rfl rfl).symm k) = ix2 r k :=
    funext fun a => Fin.ext (by
      match a with
      | ⟨0, _⟩ => exact lhs_proj_0 _ _
      | ⟨1, _⟩ => exact (lhs_proj_1 _ _).trans hk)
  have er : dot_S16384x2048_S2048x512_S16384x512_1_0_0_1_n_n.rhsIdx (ix2 r c)
      ((contrEquiv1 dot_S16384x2048_S2048x512_S16384x512_1_0_0_1_n_n 2048 rfl rfl).symm k) = ix2 k c :=
    funext fun a => Fin.ext (by
      match a with
      | ⟨0, _⟩ => exact (rhs_proj_0 _ _).trans hk
      | ⟨1, _⟩ => exact rhs_proj_1 _ _)
  rw [el, er]

/-! ## The gather at an index

The gather picks columns of the projected array: the result's row axis is the offset axis (the whole column of
16384 rows is the slice, starting at row 0), and the column axis is collapsed, its start being the start index of
the result's column, read signed and clamped into 0..511. -/

/-- Operand row: the result's row. -/
theorem pick_axis_0 (idx : (⟨S512x1, .i32⟩ : BufTy).Contents (Elt Ideal)) (y : S16384x512.Idx) :
    gather_S16384x512_S512x1_S16384x512_0_1_n_n_1_1_163841.start y idx 0
      + gather_S16384x512_S512x1_S16384x512_0_1_n_n_1_1_163841.batchCoord y 0
      + gather_S16384x512_S512x1_S16384x512_0_1_n_n_1_1_163841.offCoord y 0 = (y 0).val := by
  rw [GatherDims.batchCoord_eq_zero _ _ _ List.not_mem_nil]
  unfold GatherDims.start GatherDims.offCoord
  rw [dif_neg (show ¬(0 : Fin S16384x512.rank) ∈ gather_S16384x512_S512x1_S16384x512_0_1_n_n_1_1_163841.startIndexMap by decide),
    dif_pos (show (0 : Fin S16384x512.rank) ∈ gather_S16384x512_S512x1_S16384x512_0_1_n_n_1_1_163841.sKept by decide)]
  simp only [Nat.zero_add, Nat.add_zero]
  rfl

/-- Operand column: the clamped start index of the result's column. -/
theorem pick_axis_1 (idx : (⟨S512x1, .i32⟩ : BufTy).Contents (Elt Ideal)) (r : Fin 16384) (j : Fin 512) :
    gather_S16384x512_S512x1_S16384x512_0_1_n_n_1_1_163841.start (ix2 r j) idx 1
      + gather_S16384x512_S512x1_S16384x512_0_1_n_n_1_1_163841.batchCoord (ix2 r j) 1
      + gather_S16384x512_S512x1_S16384x512_0_1_n_n_1_1_163841.offCoord (ix2 r j) 1
      = min (idx (ix2 j (0 : Fin 1))).toInt.toNat 511 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin S16384x512.rank) ∈ gather_S16384x512_S512x1_S16384x512_0_1_n_n_1_1_163841.startIndexMap from List.mem_singleton.mpr rfl)]
  have hsi : gather_S16384x512_S512x1_S16384x512_0_1_n_n_1_1_163841.siIdx (ix2 r j)
      ⟨List.idxOf (1 : Fin S16384x512.rank) gather_S16384x512_S512x1_S16384x512_0_1_n_n_1_1_163841.startIndexMap,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl

/-- The gather at (r, j): the operand's row r at the column the j-th start index names. -/
theorem pick_apply (Z : (⟨S16384x512, .f32⟩ : BufTy).Contents (Elt Ideal)) (idx : (⟨S512x1, .i32⟩ : BufTy).Contents (Elt Ideal))
    (r : Fin 16384) (j : Fin 512) :
    pick Z idx (ix2 r j) = Z (ix2 r ⟨min (idx (ix2 j (0 : Fin 1))).toInt.toNat 511, by omega⟩) := by
  unfold pick Host.gather
  congr 1
  funext a
  refine Fin.ext ?_
  match a with
  | ⟨0, _⟩ => exact pick_axis_0 idx (ix2 r j)
  | ⟨1, _⟩ => exact pick_axis_1 idx r j

/-! ## The six-way concatenation at an index

Along the columns the pieces have extents 1, 512, 512, 512, 512, 512, so they begin at columns 0, 1, 513, 1025, 1537
and 2049.  A piece whose span holds column q is read at q less the piece's first column, in the same row. -/

/-- One piece of a concatenation along the columns of a 16384 × 2561 array, read at (r, q): piece `k`, whose first
    column is `pre`, at (r, c) where `pre + c = q`. -/
theorem cols_piece {α : Type} (xs : List ((s : Shape) × (s.Idx → α)))
    (h : Shape.Concatenates (xs.map (·.1)) S16384x2561 1)
    (k : Nat) (hk : k < xs.length) (n : Nat) (x₁ : (⟨2, ![16384, n]⟩ : Shape).Idx → α)
    (hxk : xs[k] = ⟨⟨2, ![16384, n]⟩, x₁⟩) (pre : Nat)
    (hpre : (((xs.take k).map (·.1)).map fun s =>
      if h : s.rank = S16384x2561.rank then s.size ((1 : Fin S16384x2561.rank).cast h.symm) else 0).sum = pre)
    (r : Fin 16384) (q : Fin 2561) (c : Fin n) (hc : pre + c.val = q.val) :
    concatenate S16384x2561 1 xs h (ix2 r q) = x₁ (ix2 r c) :=
  concatenate_apply_piece (1 : Fin S16384x2561.rank) xs h (ix2 r q) k hk _ x₁ hxk rfl pre hpre (ix2 r c)
    (fun b hb => by
      match b with
      | ⟨0, _⟩ => rfl
      | ⟨1, _⟩ => exact absurd (Fin.ext rfl) hb)
    hc

/-- The concatenation of a one-column piece and five 512-column pieces, read at (r, q). -/
theorem cols_apply {α : Type} (A : S16384x1.Idx → α) (B C D E G : S16384x512.Idx → α)
    (h : Shape.Concatenates (([⟨S16384x1, A⟩, ⟨S16384x512, B⟩, ⟨S16384x512, C⟩, ⟨S16384x512, D⟩, ⟨S16384x512, E⟩,
      ⟨S16384x512, G⟩] : List ((s : Shape) × (s.Idx → α))).map (·.1)) S16384x2561 1)
    (r : Fin 16384) (q : Fin 2561) :
    concatenate S16384x2561 1 [⟨S16384x1, A⟩, ⟨S16384x512, B⟩, ⟨S16384x512, C⟩, ⟨S16384x512, D⟩, ⟨S16384x512, E⟩,
      ⟨S16384x512, G⟩] h (ix2 r q)
      = if q.val = 0 then A (ix2 r (0 : Fin 1))
        else if h1 : q.val < 513 then B (ix2 r ⟨q.val - 1, by omega⟩)
        else if h2 : q.val < 1025 then C (ix2 r ⟨q.val - 513, by omega⟩)
        else if h3 : q.val < 1537 then D (ix2 r ⟨q.val - 1025, by omega⟩)
        else if h4 : q.val < 2049 then E (ix2 r ⟨q.val - 1537, by omega⟩)
        else G (ix2 r ⟨q.val - 2049, by have := q.isLt; omega⟩) := by
  by_cases h0 : q.val = 0
  · rw [if_pos h0]
    exact cols_piece _ h 0 (by show (0 : ℕ) < 6; decide) 1 A rfl 0 rfl r q (0 : Fin 1) (by rw [h0]; rfl)
  rw [if_neg h0]
  by_cases h1 : q.val < 513
  · rw [dif_pos h1]
    exact cols_piece _ h 1 (by show (1 : ℕ) < 6; decide) 512 B rfl 1 rfl r q ⟨q.val - 1, by omega⟩ (by show 1 + (q.val - 1) = q.val; omega)
  rw [dif_neg h1]
  by_cases h2 : q.val < 1025
  · rw [dif_pos h2]
    exact cols_piece _ h 2 (by show (2 : ℕ) < 6; decide) 512 C rfl 513 rfl r q ⟨q.val - 513, by omega⟩ (by show 513 + (q.val - 513) = q.val; omega)
  rw [dif_neg h2]
  by_cases h3 : q.val < 1537
  · rw [dif_pos h3]
    exact cols_piece _ h 3 (by show (3 : ℕ) < 6; decide) 512 D rfl 1025 rfl r q ⟨q.val - 1025, by omega⟩ (by show 1025 + (q.val - 1025) = q.val; omega)
  rw [dif_neg h3]
  by_cases h4 : q.val < 2049
  · rw [dif_pos h4]
    exact cols_piece _ h 4 (by show (4 : ℕ) < 6; decide) 512 E rfl 1537 rfl r q ⟨q.val - 1537, by omega⟩ (by show 1537 + (q.val - 1537) = q.val; omega)
  rw [dif_neg h4]
  exact cols_piece _ h 5 (by show (5 : ℕ) < 6; decide) 512 G rfl 2049 rfl r q ⟨q.val - 2049, by have := q.isLt; omega⟩
    (by show 2049 + (q.val - 2049) = q.val; omega)

/-! ## The cross terms

The two index tables, once wrapped, hold in-range columns, so the clamp of the gather does nothing: cross term c of
row r is the product of the row's entries at the two columns the tables name for c. -/

/-- The gather at (r, j) when the j-th start index, read signed, is the column n. -/
theorem pick_of_val (Z : (⟨S16384x512, .f32⟩ : BufTy).Contents (Elt Ideal)) (idx : (⟨S512x1, .i32⟩ : BufTy).Contents (Elt Ideal))
    (r : Fin 16384) (j n : Fin 512) (h : (idx (ix2 j (0 : Fin 1))).toInt.toNat = n.val) :
    pick Z idx (ix2 r j) = Z (ix2 r n) := by
  rw [pick_apply]
  refine congrArg (fun c => Z (ix2 r c)) (Fin.ext ?_)
  show min _ 511 = n.val
  rw [h]
  have := n.isLt
  omega

/-- Cross term c of row r: the entries at columns a and b, where a and b are what the two tables hold at c. -/
theorem cross_apply (Z : (⟨S16384x512, .f32⟩ : BufTy).Contents (Elt Ideal)) (r : Fin 16384) (c a b : Fin 512)
    (ha : a.val = if c.val < 511 then 0 else 1) (hb : b.val = if c.val < 511 then c.val + 1 else 2) :
    mulf (F := Ideal) (s := S16384x512) (φ := .f32) (pick Z (wrapCol tblI)) (pick Z (wrapCol tblJ)) (ix2 r c)
      = Z (ix2 r a) * Z (ix2 r b) := by
  refine (mulf_apply _ _ _).trans ?_
  rw [pick_of_val Z _ r c a ((wrapI_val (F := Ideal) c).trans ha.symm),
    pick_of_val Z _ r c b ((wrapJ_val (F := Ideal) c).trans hb.symm)]

/-! ## The result at an index -/

/-- The result as a function of the projected array, read at (r, q), is the specification's column q of row r. -/
theorem ofProj_apply (Z : (⟨S16384x512, .f32⟩ : BufTy).Contents (Elt Ideal)) (r : Fin 16384) (q : Fin 2561) :
    ofProj (F := Ideal) Z (ix2 r q) = Cert.Spec.feat (fun c => Z (ix2 r c)) q := by
  unfold ofProj
  refine (cols_apply _ _ _ _ _ _ _ r q).trans ?_
  unfold Cert.Spec.feat
  by_cases h0 : q.val = 0
  · rw [if_pos h0, if_pos h0]
    rfl
  rw [if_neg h0, if_neg h0]
  by_cases h1 : q.val < 513
  · rw [dif_pos h1, dif_pos h1]
  rw [dif_neg h1, dif_neg h1]
  by_cases h2 : q.val < 1025
  · rw [dif_pos h2, dif_pos h2]
    rfl
  rw [dif_neg h2, dif_neg h2]
  by_cases h3 : q.val < 1537
  · rw [dif_pos h3, dif_pos h3]
    rfl
  rw [dif_neg h3, dif_neg h3]
  by_cases h4 : q.val < 2049
  · rw [dif_pos h4]
    by_cases h5 : q.val < 2048
    · rw [dif_pos h5]
      exact cross_apply Z r _ _ _
        (by show (0 : ℕ) = if q.val - 1537 < 511 then 0 else 1
            rw [if_pos (by omega)])
        (by show q.val - 1536 = if q.val - 1537 < 511 then q.val - 1537 + 1 else 2
            rw [if_pos (by omega)]; omega)
    · have h6 : q.val = 2048 := by omega
      rw [dif_neg h5, dif_pos h6]
      exact cross_apply Z r _ _ _
        (by show (1 : ℕ) = if q.val - 1537 < 511 then 0 else 1
            rw [if_neg (by omega)])
        (by show (2 : ℕ) = if q.val - 1537 < 511 then q.val - 1537 + 1 else 2
            rw [if_neg (by omega)])
  · rw [dif_neg h4, dif_neg (show ¬q.val < 2048 by omega), dif_neg (show ¬q.val = 2048 by omega)]
    rfl

/-- The reference's result is the specification's array. -/
theorem refTerm_eq_G (X : (⟨S16384x2048, .f32⟩ : BufTy).Contents (Elt Ideal)) (P : (⟨S2048x512, .f32⟩ : BufTy).Contents (Elt Ideal)) :
    refTerm (F := Ideal) X P = Cert.Spec.G X P := by
  funext j
  obtain ⟨r, q, rfl⟩ : ∃ (r : Fin 16384) (q : Fin 2561), j = ix2 r q := ⟨j 0, j 1, eq_ix2 j⟩
  rw [Cert.Spec.G_ix2]
  unfold refTerm
  refine (ofProj_apply _ r q).trans ?_
  exact congrArg (fun z => Cert.Spec.feat z q) (funext fun c => proj_apply X P r c)

end Cert.ReferenceIdeal.RefValue

end
-- ==== Proof.lean ====
/-
  The certificate: the kernel, its idealization and the idealized reference run without fault and leave their
  arguments unchanged, and at the extended reals the kernel and the reference end with the same result array.

  Both compute, from X (16384 × 2048) and P (2048 × 512), the projection Z = X · P and then, row by row, 2561
  features: the constant one; Z; its square; its cube; 512 cross terms Z[r,i] · Z[r,j] over the first 512 pairs
  i < j in lexicographic order; and sqrt(|Z| + ε).  The reference picks the pairs through two literal index tables;
  the kernel uses that the first 511 pairs are (0, 1) … (0, 511) and the last is (1, 2).  The kernel casts X and P
  to a narrower float format before multiplying, which is the identity on extended reals, and works on blocks of
  512 rows.  Each side's result array is shown to be ONE function `Cert.Spec.G` of X and P: the kernel's block by
  block (the blocks cover the array), the reference's by reading its composed term at an index.  No step uses that
  the inputs are finite: the two sides are the same sums and products in the same arrangement.

  The idealization rewrote no operation, so there is nothing to preserve.
-/
import proofs.«405129_j481036337476_3_alg».proof.Defs
import proofs.«405129_j481036337476_3_alg».proof.Proof.Gen.Kernel
import proofs.«405129_j481036337476_3_alg».proof.Proof.Gen.Kernel.Skeleton
import proofs.«405129_j481036337476_3_alg».proof.Proof.Gen.Kernel.Launch
import proofs.«405129_j481036337476_3_alg».proof.Proof.Gen.Kernel.Points
import proofs.«405129_j481036337476_3_alg».proof.Proof.Gen.Kernel.Frame
import proofs.«405129_j481036337476_3_alg».proof.Proof.Gen.KernelIdeal
import proofs.«405129_j481036337476_3_alg».proof.Proof.Gen.KernelIdeal.Skeleton
import proofs.«405129_j481036337476_3_alg».proof.Proof.Gen.KernelIdeal.Launch
import proofs.«405129_j481036337476_3_alg».proof.Proof.Gen.KernelIdeal.Points
import proofs.«405129_j481036337476_3_alg».proof.Proof.Gen.KernelIdeal.Frame
import proofs.«405129_j481036337476_3_alg».proof.Proof.Gen.ReferenceIdeal
import proofs.«405129_j481036337476_3_alg».proof.Proof.Gen.Pre_finite_inputs
import proofs.«405129_j481036337476_3_alg».proof.Proof.KernelArray
import proofs.«405129_j481036337476_3_alg».proof.Proof.RefRun
import proofs.«405129_j481036337476_3_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- No operation was rewritten. -/
theorem preserves : Cert.preserves_Kernel_KernelIdeal := trivial

/-- From memories that agree on X and P both programs end with the result array at `G X P`. -/
theorem algebraic : Cert.algebraic_KernelIdeal_ReferenceIdeal := by
  intro m ρ m' ρ' _ hagree
  refine ⟨fun c => Cert.Spec.G (Cert.KernelIdeal.ArrValue.Xarr m c) (Cert.KernelIdeal.ArrValue.Parr m c),
    Cert.KernelIdeal.ArrValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.refTerm_eq_G _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
